-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1000x2 : Shape := ⟨3, ![512, 1000, 2]⟩
abbrev S256x2 : Shape := ⟨2, ![256, 2]⟩
abbrev S256 : Shape := ⟨1, ![256]⟩
abbrev S_ : Shape := ⟨0, ![]⟩

class Facts : Prop where
  bcast_S_S512x1000x2 : S_.BroadcastsInDim S512x1000x2 (![] : Fin 0 → Fin S512x1000x2.rank)
  reducesTo_S512x1000x2_S_d0_1_2 : S512x1000x2.ReducesTo [0, 1, 2] S_
  h_S_ : 0 < S_.numel
  bcast_S_S256x2 : S_.BroadcastsInDim S256x2 (![] : Fin 0 → Fin S256x2.rank)
  reducesTo_S256x2_S_d0_1 : S256x2.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S512x1000x2 .f32) (main_arg1 : FVec F S256x2 .f32) (main_arg2 : FVec F S256 .f32) : IVec S_ 1 :=
  let main_v0 : FVec F S512x1000x2 .f32 := Host.absf main_arg0
  let main_cst : FVec F S_ .f32 := constant S_ .f32 0x7F800000#32
  let main_v1 : FVec F S512x1000x2 .f32 := broadcastInDim S512x1000x2 ![] bcast_S_S512x1000x2 main_cst
  let main_v2 : IVec S512x1000x2 1 := cmpf .olt main_v0 main_v1
  let main_c : IVec S_ 1 := constantI S_ 1 1#1
  let main_v3 : IVec S_ 1 := (fun x v => Host.reduce IntOp.andi x v reducesTo_S512x1000x2_S_d0_1_2 h_S_) main_v2 main_c
  let main_v4 : FVec F S256x2 .f32 := Host.absf main_arg1
  let main_cst_0 : FVec F S_ .f32 := constant S_ .f32 0x7F800000#32
  let main_v5 : FVec F S256x2 .f32 := broadcastInDim S256x2 ![] bcast_S_S256x2 main_cst_0
  let main_v6 : IVec S256x2 1 := cmpf .olt main_v4 main_v5
  let main_c_1 : IVec S_ 1 := constantI S_ 1 1#1
  let main_v7 : IVec S_ 1 := (fun x v => Host.reduce IntOp.andi x v reducesTo_S256x2_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S512x1000x2 : Shape := ⟨3, ![512, 1000, 2]⟩
abbrev S256x2 : Shape := ⟨2, ![256, 2]⟩
abbrev S256 : Shape := ⟨1, ![256]⟩
abbrev S512000x2 : Shape := ⟨2, ![512000, 2]⟩
abbrev S1x256 : Shape := ⟨2, ![1, 256]⟩
abbrev S512000x256 : Shape := ⟨2, ![512000, 256]⟩
abbrev S4000x2 : Shape := ⟨2, ![4000, 2]⟩
abbrev S4000x256 : Shape := ⟨2, ![4000, 256]⟩
abbrev S2x256 : Shape := ⟨2, ![2, 256]⟩
abbrev S512x1000x256 : Shape := ⟨3, ![512, 1000, 256]⟩

abbrev nBuf : Space → Nat
  | .hbm => 7
  | .vmem => 6
  | .smem => 0
  | _ => 0

abbrev bufTy : (tb : Table) → Fin (tcTables nBuf tb) → BufTy
  | .hbm, ⟨0, _⟩ => ⟨S512x1000x2, .f32⟩
  | .hbm, ⟨1, _⟩ => ⟨S256x2, .f32⟩
  | .hbm, ⟨2, _⟩ => ⟨S256, .f32⟩
  | .hbm, ⟨3, _⟩ => ⟨S512000x2, .f32⟩
  | .hbm, ⟨4, _⟩ => ⟨S1x256, .f32⟩
  | .hbm, ⟨5, _⟩ => ⟨S512000x256, .f32⟩
  | .hbm, ⟨6, _⟩ => ⟨S512x1000x256, .f32⟩
  | .local _ .vmem, ⟨0, _⟩ => ⟨S4000x2, .f32⟩
  | .local _ .vmem, ⟨1, _⟩ => ⟨S4000x2, .f32⟩
  | .local _ .vmem, ⟨2, _⟩ => ⟨S256x2, .f32⟩
  | .local _ .vmem, ⟨3, _⟩ => ⟨S1x256, .f32⟩
  | .local _ .vmem, ⟨4, _⟩ => ⟨S4000x256, .f32⟩
  | .local _ .vmem, ⟨5, _⟩ => ⟨S4000x256, .f32⟩
  | _, _ => ⟨S512x1000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512x1000x2_S512000x2 : S512x1000x2.ShapeCasts S512000x2
  shapeCasts_S256_S1x256 : S256.ShapeCasts S1x256
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  bitsLt_bf16_f32 : FTy.bits .bf16 < FTy.bits .f32
  inb_S256x2_S256x2_0_0 : ∀ a, (![0, 0] : Fin 2 → Nat) a + S256x2.size a ≤ S256x2.size a
  h_S256x2 : 0 < S256x2.numel
  transposes_S256x2_p1_0_S2x256 : S256x2.Transposes [1, 0] S2x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  shapeCasts_S512000x256_S512x1000x256 : S512000x256.ShapeCasts S512x1000x256
  dot_S4000x2_S2x256_S4000x256_1_0_0_1_n_n_wf : DotDims.WF S4000x2 S2x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S512000x2.size a
  hwx0_0 : ∀ i : grid0.Coords, EltTy.bits .f32 = 32 ∨ (Rect.block (s := S512000x2) S4000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S256x2.size a
  hwx0_1 : ∀ i : grid0.Coords, EltTy.bits .f32 = 32 ∨ (Rect.block (s := S256x2) S256x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S512000x256.size a
  hwx0_3 : ∀ i : grid0.Coords, EltTy.bits .f32 = 32 ∨ (Rect.block (s := S512000x256) S4000x256.size (cc0_transform_3 i) (hinb0_3 i)).WholeWords (EltTy.packing .f32)

variable [Facts₀]

def dot_S4000x2_S2x256_S4000x256_1_0_0_1_n_n : DotDims S4000x2 S2x256 S4000x256 where
  lhsContracting := [1]
  rhsContracting := [0]
  lhsNonContracting := [0]
  rhsNonContracting := [1]
  lhsBatch := []
  rhsBatch := []
  wf := dot_S4000x2_S2x256_S4000x256_1_0_0_1_n_n_wf

abbrev win0_0 : Pipeline.Window sig grid0 :=
  Pipeline.Window.ofSpec (Memref.whole main_v0) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x1000x2 : Shape := ⟨3, ![512, 1000, 2]⟩
abbrev S256x2 : Shape := ⟨2, ![256, 2]⟩
abbrev S256 : Shape := ⟨1, ![256]⟩
abbrev S512x1000x256 : Shape := ⟨3, ![512, 1000, 256]⟩
abbrev S1x1x256 : Shape := ⟨3, ![1, 1, 256]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S512x1000x2, .f32⟩
  | .hbm, ⟨1, _⟩ => ⟨S256x2, .f32⟩
  | .hbm, ⟨2, _⟩ => ⟨S256, .f32⟩
  | .hbm, ⟨3, _⟩ => ⟨S512x1000x256, .f32⟩
  | .hbm, ⟨4, _⟩ => ⟨S1x1x256, .f32⟩
  | .hbm, ⟨5, _⟩ => ⟨S512x1000x256, .f32⟩
  | .hbm, ⟨6, _⟩ => ⟨S512x1000x256, .f32⟩
  | .hbm, ⟨7, _⟩ => ⟨S_, .f32⟩
  | .hbm, ⟨8, _⟩ => ⟨S512x1000x256, .f32⟩
  | .hbm, ⟨9, _⟩ => ⟨S512x1000x256, .f32⟩
  | _, _ => ⟨S512x1000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S512x1000x256_0_1_2 : S1x1x256.BroadcastsInDim S512x1000x256 (![0, 1, 2] : Fin 3 → Fin S512x1000x256.rank)
  bcast_S_S512x1000x256 : S_.BroadcastsInDim S512x1000x256 (![] : Fin 0 → Fin S512x1000x256.rank)
  dot_S512x1000x2_S256x2_S512x1000x256_2_1_01_0_n_n_wf : DotDims.WF S512x1000x2 S256x2 S512x1000x256 [2] [1] [0, 1] [0] [] []

variable [Facts₀]

def dot_S512x1000x2_S256x2_S512x1000x256_2_1_01_0_n_n : DotDims S512x1000x2 S256x2 S512x1000x256 where
  lhsContracting := [2]
  rhsContracting := [1]
  lhsNonContracting := [0, 1]
  rhsNonContracting := [0]
  lhsBatch := []
  rhsBatch := []
  wf := dot_S512x1000x2_S256x2_S512x1000x256_2_1_01_0_n_n_wf

class Facts : Prop extends Facts₀ where

variable [Facts]
-- ==== Proof.DenseRelu.lean ====
/-
  The dense embedding layer as one function of its arrays, over the extended reals: every output entry is
  relu (sum over the two input features of x * w, plus the bias). It is written twice: over the rows flattened
  to one axis, [512000, 2] -> [512000, 256], which is the form a row-tiled computation produces, and over the
  batched rows [512, 1000, 2] -> [512, 1000, 256]. Row-major flattening sends row (p, q) to p * 1000 + q and
  leaves the feature axis alone, so the flat form of the flattened input, reshaped back, is the batched form
  (flat_reshape): no arithmetic law is involved, only where each entry is read.
-/
import Idealize.ShloMosaic.Lib.ValueIdx
import Idealize.ShloMosaic.Lib.Pipeline.Value

noncomputable section

open scoped BigOperators

namespace Cert.DenseRelu

open Idealize.ShloMosaic Idealize.ShloMosaic.ValueIdx

abbrev Batched2 : Shape := ⟨3, ![512, 1000, 2]⟩
abbrev Batched256 : Shape := ⟨3, ![512, 1000, 256]⟩
abbrev Rows2 : Shape := ⟨2, ![512000, 2]⟩
abbrev Rows256 : Shape := ⟨2, ![512000, 256]⟩
abbrev Weight : Shape := ⟨2, ![256, 2]⟩
abbrev Bias : Shape := ⟨1, ![256]⟩
abbrev BiasRow : Shape := ⟨2, ![1, 256]⟩

/-- The zero the maximum is taken against: the word of +0.0. -/
abbrev floor0 : EReal := Ideal.ofBits .f32 0x00000000#32

/-- One entry of the layer from a row's two features, a weight row's two entries and a bias entry. -/
def entry (xs ws : Fin 2 → EReal) (b : EReal) : EReal := max ((∑ k : Fin 2, xs k * ws k) + b) floor0

/-- The layer over flattened rows: entry (r, d) from row r of X, row d of W and bias entry (0, d). -/
def flat (X : Rows2.Idx → EReal) (W : Weight.Idx → EReal) (B : BiasRow.Idx → EReal) : Rows256.Idx → EReal :=
  fun i => entry (fun k => X (ix2 (i 0) k)) (fun k => W (ix2 (i 1) k)) (B (ix2 (0 : Fin 1) (i 1)))

/-- The layer over batched rows: entry (p, q, d) from row (p, q) of x, row d of W and bias entry d. -/
def batched (x : Batched2.Idx → EReal) (W : Weight.Idx → EReal) (b : Bias.Idx → EReal) : Batched256.Idx → EReal :=
  fun i => entry (fun k => x (ix3 (i 0) (i 1) k)) (fun k => W (ix2 (i 2) k)) (b (ix1 (i 2)))

/-- The flattened row index of batched row (p, q). -/
def rowOf (p : Fin 512) (q : Fin 1000) : Fin 512000 := ⟨p.val * 1000 + q.val, by have := p.isLt; have := q.isLt; omega⟩

/-- Flatten the rows, apply the flat layer to the bias laid out as one row, and un-flatten: the batched layer. -/
theorem flat_reshape (x : Batched2.Idx → EReal) (W : Weight.Idx → EReal) (b : Bias.Idx → EReal)
    (hx : Batched2.ShapeCasts Rows2) (hb : Bias.ShapeCasts BiasRow) (hy : Rows256.ShapeCasts Batched256) :
    shapeCast Batched256 (flat (shapeCast Rows2 x hx) W (shapeCast BiasRow b hb)) hy = batched x W b := by
  funext i
  obtain ⟨p, q, d, rfl⟩ : ∃ (p : Fin 512) (q : Fin 1000) (d : Fin 256), i = ix3 p q d := ⟨i 0, i 1, i 2, eq_ix3 i⟩
  have hp := p.isLt
  have hq := q.isLt
  have hd := d.isLt
  -- the outer reshape reads the flat result at (p * 1000 + q, d)
  refine (shapeCast_apply _ hy (ix3 p q d) (ix2 (rowOf p q) d)
    (by rw [Shape.rowMajor_val_two, Shape.rowMajor_val_three]
        show (p.val * 1000 + q.val) * 256 + d.val = (p.val * 1000 + q.val) * 256 + d.val
        rfl)).trans ?_
  show entry (fun k => shapeCast Rows2 x hx (ix2 (rowOf p q) k)) (fun k => W (ix2 d k)) (shapeCast BiasRow b hb (ix2 (0 : Fin 1) d))
    = entry (fun k => x (ix3 p q k)) (fun k => W (ix2 d k)) (b (ix1 d))
  -- the flattened input at (p * 1000 + q, k) is x at (p, q, k); the bias row at (0, d) is b at d
  have ex : ∀ k : Fin 2, shapeCast Rows2 x hx (ix2 (rowOf p q) k) = x (ix3 p q k) := fun k =>
    shapeCast_apply x hx (ix2 (rowOf p q) k) (ix3 p q k)
      (by rw [Shape.rowMajor_val_two, Shape.rowMajor_val_three]
          show (p.val * 1000 + q.val) * 2 + k.val = (p.val * 1000 + q.val) * 2 + k.val
          rfl)
  have eb : shapeCast BiasRow b hb (ix2 (0 : Fin 1) d) = b (ix1 d) :=
    shapeCast_apply b hb (ix2 (0 : Fin 1) d) (ix1 d)
      (by rw [Shape.rowMajor_val_one, Shape.rowMajor_val_two]
          show d.val = 0 * 256 + d.val
          omega)
  rw [eb, funext ex]

end Cert.DenseRelu

end
-- ==== Proof.BlockEntry.lean ====
/-
  One entry of what the kernel body stores for a tile of 4000 rows. The body multiplies the tile [4000, 2] by
  the transposed weight [2, 256] into a zero accumulator, adds the bias row broadcast down the tile, and takes
  the maximum with zero. Over the extended reals the narrowing of the operands is the identity, the product
  into a zero accumulator is the plain sum over the two features, the transposed weight at (k, d) is the
  weight at (d, k), and the broadcast bias at (r, d) is the bias row at (0, d): so entry (r, d) of the stored
  tile is the layer's entry of tile row r, weight row d and bias entry (0, d).
-/
import proofs.«137557_j46591805227295_1_alg».proof.Proof.Gen.KernelIdeal.Skeleton
import proofs.«137557_j46591805227295_1_alg».proof.Proof.DenseRelu
import Idealize.ShloMosaic.Lib.ValueIdx
import Idealize.ShloMosaic.Lib.Pipeline.Value
import Idealize.ShloMosaic.PureOps.Ideal.Laws

noncomputable section

open scoped BigOperators

namespace Cert.KernelIdeal.Dense

open Cert.KernelIdeal Cert.KernelIdeal.Gen Idealize.ShloMosaic Idealize.ShloMosaic.ValueIdx Cert.DenseRelu

/-! ## The tile product's operand indices, axis by axis -/

theorem lhs_row (i : S4000x256.Idx) (q : dot_S4000x2_S2x256_S4000x256_1_0_0_1_n_n.contr.Idx) :
    (dot_S4000x2_S2x256_S4000x256_1_0_0_1_n_n.lhsIdx i q 0).val = (i 0).val := by
  unfold DotDims.lhsIdx
  rw [dif_neg (show ¬(0 : Fin S4000x2.rank) ∈ dot_S4000x2_S2x256_S4000x256_1_0_0_1_n_n.lhsBatch by decide), dif_pos (show (0 : Fin S4000x2.rank) ∈ dot_S4000x2_S2x256_S4000x256_1_0_0_1_n_n.lhsNonContracting by decide)]
  rfl
theorem lhs_feature (i : S4000x256.Idx) (q : dot_S4000x2_S2x256_S4000x256_1_0_0_1_n_n.contr.Idx) :
    (dot_S4000x2_S2x256_S4000x256_1_0_0_1_n_n.lhsIdx i q 1).val = (q ⟨0, by decide⟩).val :=
  dot_S4000x2_S2x256_S4000x256_1_0_0_1_n_n.lhsIdx_val_of_single rfl i q
theorem rhs_feature (i : S4000x256.Idx) (q : dot_S4000x2_S2x256_S4000x256_1_0_0_1_n_n.contr.Idx) :
    (dot_S4000x2_S2x256_S4000x256_1_0_0_1_n_n.rhsIdx i q 0).val = (q ⟨0, by decide⟩).val :=
  dot_S4000x2_S2x256_S4000x256_1_0_0_1_n_n.rhsIdx_val_of_single rfl i q
theorem rhs_col (i : S4000x256.Idx) (q : dot_S4000x2_S2x256_S4000x256_1_0_0_1_n_n.contr.Idx) :
    (dot_S4000x2_S2x256_S4000x256_1_0_0_1_n_n.rhsIdx i q 1).val = (i 1).val := by
  unfold DotDims.rhsIdx
  rw [dif_neg (show ¬(1 : Fin S2x256.rank) ∈ dot_S4000x2_S2x256_S4000x256_1_0_0_1_n_n.rhsBatch by decide), dif_pos (show (1 : Fin S2x256.rank) ∈ dot_S4000x2_S2x256_S4000x256_1_0_0_1_n_n.rhsNonContracting by decide)]
  rfl

/-- The tile product into a zero accumulator, at (r, d): the sum over the two features. -/
theorem tile_product (a : FVec Ideal S4000x2 .bf16) (bt : FVec Ideal S2x256 .bf16) (r : Fin 4000) (d : Fin 256) :
    matmul dot_S4000x2_S2x256_S4000x256_1_0_0_1_n_n none a bt (constant S4000x256 .f32 0x00000000#32) (ix2 r d)
      = ∑ k : Fin 2, a (ix2 r k) * bt (ix2 k d) := by
  show FloatOps.matmul dot_S4000x2_S2x256_S4000x256_1_0_0_1_n_n none a bt (constant S4000x256 .f32 0x00000000#32) (ix2 r d) = _
  rw [Ideal.matmul_constant_zero_apply, ← Equiv.sum_comp (contrEquiv1 dot_S4000x2_S2x256_S4000x256_1_0_0_1_n_n 2 rfl rfl).symm]
  refine Finset.sum_congr rfl fun k _ => ?_
  have hk := contrEquiv1_symm_val dot_S4000x2_S2x256_S4000x256_1_0_0_1_n_n 2 rfl rfl k
  have el : dot_S4000x2_S2x256_S4000x256_1_0_0_1_n_n.lhsIdx (ix2 r d) ((contrEquiv1 dot_S4000x2_S2x256_S4000x256_1_0_0_1_n_n 2 rfl rfl).symm k) = ix2 r k := funext fun a => Fin.ext (by
    match a with
    | ⟨0, _⟩ => exact lhs_row _ _
    | ⟨1, _⟩ => exact (lhs_feature _ _).trans hk)
  have er : dot_S4000x2_S2x256_S4000x256_1_0_0_1_n_n.rhsIdx (ix2 r d) ((contrEquiv1 dot_S4000x2_S2x256_S4000x256_1_0_0_1_n_n 2 rfl rfl).symm k) = ix2 k d := funext fun a => Fin.ext (by
    match a with
    | ⟨0, _⟩ => exact (rhs_feature _ _).trans hk
    | ⟨1, _⟩ => exact rhs_col _ _)
  rw [el, er]

/-- The transposed weight at (k, d) is the weight at (d, k). -/
theorem weightT_apply (w : FVec Ideal S256x2 .bf16) (k : Fin 2) (d : Fin 256) :
    transpose S2x256 [1, 0] w transposes_S256x2_p1_0_S2x256 (ix2 k d) = w (ix2 d k) :=
  transpose_apply [1, 0] w transposes_S256x2_p1_0_S2x256 (ix2 k d) (ix2 d k)
    (fun b => match b with | ⟨0, _⟩ => rfl | ⟨1, _⟩ => rfl)

/-- The bias row broadcast down the tile, at (r, d), is the bias row at (0, d). -/
theorem biasDown_apply (b : FVec Ideal S1x256 .f32) (r : Fin 4000) (d : Fin 256) :
    broadcastTo S4000x256 b broadcasts_S1x256_S4000x256 (ix2 r d) = b (ix2 (0 : Fin 1) d) :=
  broadcastTo_apply b broadcasts_S1x256_S4000x256 (ix2 r d) (ix2 (0 : Fin 1) d)
    (fun a => match a with
      | ⟨0, _⟩ => by show (0 : Nat) = if (1 : Nat) = 1 then 0 else r.val; rw [if_pos rfl]
      | ⟨1, _⟩ => by show d.val = if (256 : Nat) = 1 then 0 else d.val; rw [if_neg (by decide)])

/-- Entry (r, d) of the stored tile. -/
theorem payload_entry (x0 : Vec Ideal S4000x2 .f32) (x1 : Vec Ideal S256x2 .f32) (x2 : Vec Ideal S1x256 .f32)
    (r : Fin 4000) (d : Fin 256) :
    k0_pay1 (F := Ideal) x0 x1 x2 (ix2 r d)
      = entry (fun k => x0 (ix2 r k)) (fun k => x1 (ix2 d k)) (x2 (ix2 (0 : Fin 1) d)) := by
  unfold k0_pay1 entry
  rw [shapeCast_self, shapeCast_self]
  show max (matmul (F := Ideal) dot_S4000x2_S2x256_S4000x256_1_0_0_1_n_n none (truncf (F := Ideal) .bf16 (x0 : FVec Ideal S4000x2 .f32) bitsLt_bf16_f32)
        (transpose S2x256 [1, 0] (truncf (F := Ideal) .bf16 (x1 : FVec Ideal S256x2 .f32) bitsLt_bf16_f32) transposes_S256x2_p1_0_S2x256)
        (constant (F := Ideal) S4000x256 .f32 0x00000000#32) (ix2 r d)
      + broadcastTo S4000x256 x2 broadcasts_S1x256_S4000x256 (ix2 r d)) floor0 = _
  rw [tile_product, biasDown_apply]
  refine congrArg (fun s => max (s + x2 (ix2 (0 : Fin 1) d)) floor0) (Finset.sum_congr rfl fun k _ => ?_)
  exact congrArg (x0 (ix2 r k) * ·)
    (weightT_apply (truncf (F := Ideal) .bf16 (x1 : FVec Ideal S256x2 .f32) bitsLt_bf16_f32) k d)

end Cert.KernelIdeal.Dense

end
-- ==== Proof.RegionArray.lean ====
/-
  The region's output array after the run. The grid has 128 points; point t stages rows 4000 t .. 4000 t + 3999
  of the flattened input, the whole weight and the whole bias row, and writes back rows 4000 t .. 4000 t + 3999
  of the output. What it writes back is that block of ONE function of the arrays the region finds — the layer
  over flattened rows — because tile row r of point t is array row 4000 t + r and the weight and bias blocks
  are the arrays themselves. Row i lies in the block of point i / 4000, so the 128 blocks cover the output and
  the array ends holding the flat layer of the arrays at the region's entry.
-/
import proofs.«137557_j46591805227295_1_alg».proof.Proof.Gen.KernelIdeal.Frame
import proofs.«137557_j46591805227295_1_alg».proof.Proof.BlockEntry

set_option maxRecDepth 16384

noncomputable section

open scoped BigOperators

namespace Cert.KernelIdeal.Dense

open Cert.KernelIdeal Cert.KernelIdeal.Gen Idealize.ShloMosaic Idealize.ShloMosaic.TcCoe Idealize.ShloMosaic.ValueIdx
open Idealize.SL.Sem Cert.DenseRelu
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- The block index of every window at every point: the row windows follow the point, the weight and the bias
    row have one block. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A stored tile is a block of the flat layer: if tile row r is array row n * 4000 + r of X, and the staged
    weight and bias row are W and B, then the payload at j is the flat layer at the array index of j. -/
theorem tile_entry (X : Rows2.Idx → EReal) (W : Weight.Idx → EReal) (B : BiasRow.Idx → EReal)
    (x0 : Vec Ideal S4000x2 .f32) (x1 : Vec Ideal S256x2 .f32) (x2 : Vec Ideal S1x256 .f32) (n : Nat)
    (h0 : ∀ (r : Fin 4000) (k : Fin 2) (i : Rows2.Idx), (i 0).val = n * 4000 + r.val → (i 1).val = k.val → x0 (ix2 r k) = X i)
    (h1 : ∀ (d : Fin 256) (k : Fin 2), x1 (ix2 d k) = W (ix2 d k))
    (h2 : ∀ d : Fin 256, x2 (ix2 (0 : Fin 1) d) = B (ix2 (0 : Fin 1) d))
    (j : S4000x256.Idx) (i : Rows256.Idx) (hi0 : (i 0).val = n * 4000 + (j 0).val) (hi1 : (i 1).val = (j 1).val) :
    k0_pay1 (F := Ideal) x0 x1 x2 j = flat X W B i := by
  obtain ⟨r, d, rfl⟩ : ∃ (r : Fin 4000) (d : Fin 256), j = ix2 r d := ⟨j 0, j 1, eq_ix2 j⟩
  rw [payload_entry]
  unfold flat
  have ed : i 1 = d := Fin.ext hi1
  rw [ed]
  have ex : (fun k => x0 (ix2 r k)) = fun k => X (ix2 (i 0) k) := funext fun k => h0 r k (ix2 (i 0) k) hi0 rfl
  have ew : (fun k => x1 (ix2 d k)) = fun k => W (ix2 d k) := funext fun k => h1 d k
  rw [ex, ew, h2 d]

/-- WHAT POINT t WRITES BACK: block t of the flat layer of the arrays as the region finds them. -/
theorem tile_flushed (c : Dev nD) (t : Fin cfg0.N) :
    (dats m 0 c).flushed 3 t
      = ((cfg0.win 3).blk t).view.read (Elt Ideal) (flat (V m c main_v0) (V m c main_arg1) (V m c main_v1)) := by
  show (cfg0.win 3).cut (grid0.coords t) ((dats m 0 c).after 3 t) = _
  rw [after0_3]
  unfold out0_3
  rw [View.canon_unit_zero zero_offsets]
  simp only [View.ld_unit_zero (S := S4000x2) zero_offsets, View.ld_unit_zero (S := S256x2) zero_offsets,
    View.ld_unit_zero (S := S1x256) zero_offsets]
  obtain ⟨e00, e01, e10, e11, e20, e21, e30, e31⟩ := tile_index t
  funext j
  show k0_pay1 (F := Ideal) (iblk m c 0 t) (iblk m c 1 t) (iblk m c 2 t) j
    = flat (V m c main_v0) (V m c main_arg1) (V m c main_v1) (((cfg0.win 3).blk t).view.emb j)
  refine tile_entry (V m c main_v0) (V m c main_arg1) (V m c main_v1) (iblk m c 0 t) (iblk m c 1 t) (iblk m c 2 t) t.val
    ?_ ?_ ?_ j (((cfg0.win 3).blk t).view.emb j) ?_ ?_
  · intro r k i hi0 hi1
    show V m c main_v0 (((cfg0.win 0).blk t).view.emb (ix2 r k)) = V m c main_v0 i
    refine congrArg (V m c main_v0) (funext fun a => Fin.ext ?_)
    match a with
    | ⟨0, _⟩ => show win0_0.index t (0 : Fin 2) * 4000 + 1 * r.val = (i 0).val; omega
    | ⟨1, _⟩ => show win0_0.index t (1 : Fin 2) * 2 + 1 * k.val = (i 1).val; omega
  · intro d k
    show V m c main_arg1 (((cfg0.win 1).blk t).view.emb (ix2 d k)) = V m c main_arg1 (ix2 d k)
    refine congrArg (V m c main_arg1) (funext fun a => Fin.ext ?_)
    match a with
    | ⟨0, _⟩ => show win0_1.index t (0 : Fin 2) * 256 + 1 * d.val = d.val; omega
    | ⟨1, _⟩ => show win0_1.index t (1 : Fin 2) * 2 + 1 * k.val = k.val; omega
  · intro d
    show V m c main_v1 (((cfg0.win 2).blk t).view.emb (ix2 (0 : Fin 1) d)) = V m c main_v1 (ix2 (0 : Fin 1) d)
    refine congrArg (V m c main_v1) (funext fun a => Fin.ext ?_)
    match a with
    | ⟨0, _⟩ => show win0_2.index t (0 : Fin 2) * 1 + 1 * 0 = 0; omega
    | ⟨1, _⟩ => show win0_2.index t (1 : Fin 2) * 256 + 1 * d.val = d.val; omega
  · show win0_3.index t (0 : Fin 2) * 4000 + 1 * (j 0).val = t.val * 4000 + (j 0).val; omega
  · show win0_3.index t (1 : Fin 2) * 256 + 1 * (j 1).val = (j 1).val; omega

/-- An index of the output is in point t's block iff each coordinate is in the block's range on its axis. -/
theorem mem_tile (t : Fin cfg0.N) (i : S512000x256.Idx) :
    i ∈ ((cfg0.win 3).blk t).view.set ↔ ∀ a : Fin 2, win0_3.index t a * S4000x256.size a ≤ (i a).val
      ∧ (i a).val < win0_3.index t a * S4000x256.size a + S4000x256.size a := by
  show i ∈ ((View.whole main_v2).slice (win0_3.rect t)).set ↔ _
  rw [View.set_slice_whole, Rect.mem_set_unit]
  exact Iff.rfl

/-- Every output index is in the block of the point its row falls in. -/
theorem tiles_cover (i : S512000x256.Idx) :
    ∃ t : Fin cfg0.N, (cfg0.win 3).flush t = true ∧ i ∈ ((cfg0.win 3).blk t).view.set := by
  have hi0 : (i 0).val < 512000 := (i 0).isLt
  have hi1 : (i 1).val < 256 := (i 1).isLt
  let t : Fin cfg0.N := ⟨(i 0).val / 4000, by show (i 0).val / 4000 < 128; omega⟩
  have ht : t.val = (i 0).val / 4000 := rfl
  obtain ⟨e00, e01, e10, e11, e20, e21, e30, e31⟩ := tile_index t
  refine ⟨t, flush0_3 t, ?_⟩
  rw [mem_tile]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 256 ≤ (i 1).val ∧ (i 1).val < win0_3.index t (1 : Fin 2) * 256 + 256; omega

/-- THE REGION'S ARRAY after the run: the flat layer of the arrays at the region's entry. -/
theorem region_array (c : Dev nD) :
    (dats m 0 c).arrAt 3 cfg0.N = flat (V m c main_v0) (V m c main_arg1) (V m c main_v1) :=
  (dats m 0 c).arrAt_eq_of_cover 3 (flat (V m c main_v0) (V m c main_arg1) (V m c main_v1))
    (fun t _ => tile_flushed m c t) (tiles_cover)

end Cert.KernelIdeal.Dense

end
-- ==== Proof.KernelResult.lean ====
/-
  The kernel program's result. Before the region the program flattens x to [512000, 2] and lays the bias out as
  one row [1, 256]; the region leaves the flat layer of those arrays in its output; after the region the program
  reshapes that output to [512, 1000, 256]. Flattening, the flat layer, and un-flattening compose to the
  batched layer of the three arguments (the reshape law of the layer), so every execution ends with the result
  buffer at the batched layer and the arguments as they were.
-/
import proofs.«137557_j46591805227295_1_alg».proof.Proof.Gen.KernelIdeal.Frame
import proofs.«137557_j46591805227295_1_alg».proof.Proof.RegionArray
import Idealize.ShloMosaic.Lib.StableHlo.Run

set_option maxRecDepth 16384

noncomputable section

namespace Cert.KernelIdeal.Dense

open Cert.KernelIdeal Cert.KernelIdeal.Gen Idealize.ShloMosaic Idealize.ShloMosaic.TcCoe Idealize.ShloMosaic.ValueIdx
open Idealize.SL.Sem Cert.DenseRelu Idealize.ShloMosaic.StableHlo
open Idealize.ShloMosaic.Pipeline (Dat Cfg Window)

variable (m : (ℓ : Loc nD τ sig) → Buf (Elt Ideal) ℓ) (ρ : Dev nD → PrngReg)

/-- The region finds the flattened input: x reshaped to [512000, 2]. -/
theorem rows_at_entry (c : Dev nD) :
    (V m c main_v0 : S512000x2.Idx → EReal)
      = shapeCast S512000x2 (m ((c : Thread nD τ).loc main_arg0) : S512x1000x2.Idx → EReal) shapeCasts_S512x1000x2_S512000x2 := by
  show StableHlo.after hostOps0 (fun b => m (c, b)) (Proc.devRef .tc main_v0) = _
  after_results
  rfl

/-- The region finds the bias as one row: b reshaped to [1, 256]. -/
theorem bias_at_entry (c : Dev nD) :
    (V m c main_v1 : S1x256.Idx → EReal)
      = shapeCast S1x256 (m ((c : Thread nD τ).loc main_arg2) : S256.Idx → EReal) shapeCasts_S256_S1x256 := by
  show StableHlo.after hostOps0 (fun b => m (c, b)) (Proc.devRef .tc main_v1) = _
  after_results
  rfl

/-- The result buffer after the program's last reshape: the batched layer of the three arguments. -/
theorem result_after_tail (c : Dev nD) :
    (Pipeline.afterTail₀ cfgs (dats m) 0 (V0 m) [hostOps1] c main_v3 : S512x1000x256.Idx → EReal)
      = batched (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hreg := (Pipeline.withArrays_arr spec0 launch0.win.arr_inj c (V0 m c)
    (fun w => (dats m 0 c).arrAt w cfg0.N) 3).trans (region_array m c)
  rw [rows_at_entry, bias_at_entry, V_main_arg1] at hreg
  refine Eq.trans ?_ (flat_reshape (m ((c : Thread nD τ).loc main_arg0)) (m ((c : Thread nD τ).loc main_arg1))
    (m ((c : Thread nD τ).loc main_arg2)) shapeCasts_S512x1000x2_S512000x2 shapeCasts_S256_S1x256
    shapeCasts_S512000x256_S512x1000x256)
  exact congrArg (fun y : S512000x256.Idx → EReal => shapeCast S512x1000x256 y shapeCasts_S512000x256_S512x1000x256) hreg

/-- THE KERNEL PROGRAM'S RUN: every weakly fair execution terminates with the result buffer at the batched layer
    of the arguments and the arguments unchanged. -/
theorem run : θ_run defs (onTc (τ := τ) (main (F := Ideal))) ⟨m, fun _ => 0, ρ⟩ fun r => ∀ c : Dev nD,
      r.2.mem ((c.tc : Thread nD τ).loc main_v3)
        = batched (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_after_tail m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Dense

end
-- ==== Proof.ReferenceResult.lean ====
/-
  The reference computes the batched layer. Its result is the maximum with a zero splat of (the contraction of x
  with the weight over the feature axis, plus the bias broadcast over the batch and row axes). Read at an index
  (p, q, d): the contraction is the sum over the two features of x (p, q, k) * W (d, k), the two broadcasts read
  the bias at d, and the splat reads the zero word: the layer's entry.
-/
import proofs.«137557_j46591805227295_1_alg».proof.Proof.Gen.ReferenceIdeal.Read
import proofs.«137557_j46591805227295_1_alg».proof.Proof.DenseRelu

noncomputable section

open scoped BigOperators

namespace Cert.ReferenceIdeal.Dense

open Cert.ReferenceIdeal Cert.ReferenceIdeal.Gen Cert.ReferenceIdeal.Read Idealize.ShloMosaic Idealize.ShloMosaic.ValueIdx
open Cert.DenseRelu

/-- The reference's result, as a function of its three arguments, is the batched layer. -/
theorem result_is_batched (x : S512x1000x2.Idx → EReal) (W : S256x2.Idx → EReal) (b : S256.Idx → EReal) :
    val_main_v4 (F := Ideal) x W b = batched x W b := by
  funext i
  have el : ∀ k : Fin 2, lidx_main_v0 i k = ix3 (i 0) (i 1) k := fun k => funext fun a => Fin.ext (by
    match a with | ⟨0, _⟩ => rfl | ⟨1, _⟩ => rfl | ⟨2, _⟩ => rfl)
  have er : ∀ k : Fin 2, ridx_main_v0 i k = ix2 (i 2) k := fun k => funext fun a => Fin.ext (by
    match a with | ⟨0, _⟩ => rfl | ⟨1, _⟩ => rfl)
  have eb : idx_main_v1 (idx_main_v2 i) = ix1 (i 2) := funext fun a => Fin.ext (by
    match a with | ⟨0, _⟩ => rfl)
  rw [val_main_v4_apply, val_main_v3_apply, val_main_v0_apply, val_main_v2_apply, val_main_v1_apply,
    val_main_call0_v0_apply, val_main_call0_cst_apply]
  simp only [el, er, eb]
  rfl

end Cert.ReferenceIdeal.Dense

end
-- ==== Proof.lean ====
/-
  A dense embedding layer, relu (x W^T + b) with two input features and 256 outputs, computed by a kernel tiled
  over the flattened rows, against its einsum reference.

  Over the extended reals both programs compute, at every (p, q, d),
      max (x (p, q, 0) * W (d, 0) + x (p, q, 1) * W (d, 1) + b d, 0).
  The kernel flattens the rows to one axis, and per tile of 4000 rows multiplies by the transposed weight into a
  zero accumulator, adds the bias row and clamps at zero; the tiles cover the output, which is reshaped back.
  The reference contracts x with W over the feature axis, adds the broadcast bias and clamps at zero. The two
  differ only in where entries are read (row (p, q) is flat row 1000 p + q; the transposed weight at (k, d) is
  the weight at (d, k)); no law of arithmetic beyond that is used, so the finiteness of the inputs is not needed.

  The three frames: the two kernel programs' are their generated frame certificates; the reference has no kernel
  and its frame is its run with the result dropped. The idealization rewrote nothing, so preserves is trivial.
-/
import proofs.«137557_j46591805227295_1_alg».proof.Defs
import proofs.«137557_j46591805227295_1_alg».proof.Proof.Gen.Kernel
import proofs.«137557_j46591805227295_1_alg».proof.Proof.Gen.Kernel.Skeleton
import proofs.«137557_j46591805227295_1_alg».proof.Proof.Gen.Kernel.Launch
import proofs.«137557_j46591805227295_1_alg».proof.Proof.Gen.Kernel.Points
import proofs.«137557_j46591805227295_1_alg».proof.Proof.Gen.Kernel.Frame
import proofs.«137557_j46591805227295_1_alg».proof.Proof.Gen.KernelIdeal
import proofs.«137557_j46591805227295_1_alg».proof.Proof.Gen.KernelIdeal.Skeleton
import proofs.«137557_j46591805227295_1_alg».proof.Proof.Gen.KernelIdeal.Launch
import proofs.«137557_j46591805227295_1_alg».proof.Proof.Gen.KernelIdeal.Points
import proofs.«137557_j46591805227295_1_alg».proof.Proof.Gen.KernelIdeal.Frame
import proofs.«137557_j46591805227295_1_alg».proof.Proof.Gen.ReferenceIdeal
import proofs.«137557_j46591805227295_1_alg».proof.Proof.Gen.Pre_finite_inputs
import proofs.«137557_j46591805227295_1_alg».proof.Proof.Gen.ReferenceIdeal.Run
import proofs.«137557_j46591805227295_1_alg».proof.Proof.Gen.ReferenceIdeal.Read
import proofs.«137557_j46591805227295_1_alg».proof.Proof.KernelResult
import proofs.«137557_j46591805227295_1_alg».proof.Proof.ReferenceResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result at the batched layer of their arguments; the arguments agree. -/
theorem algebraic : Cert.algebraic_KernelIdeal_ReferenceIdeal := by
  intro m ρ m' ρ' _ hagree
  refine ⟨_, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Dense.result_is_batched,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
